-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x512 : Shape := ⟨3, ![32, 64, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S32x64x512 .f32) (main_arg1 : FVec F S32x64x512 .f32) (main_arg2 : FVec F S1024x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S32x64x512 .f32 := Host.absf main_arg0
  let main_cst : FVec F S_ .f32 := constant S_ .f32 0x7F800000#32
  let main_v1 : FVec F S32x64x512 .f32 := broadcastInDim S32x64x512 ![] bcast_S_S32x64x512 main_cst
  let main_v2 : IVec S32x64x512 1 := cmpf .olt main_v0 main_v1
  let main_c : IVec S_ 1 := constantI S_ 1 1#1
  let main_v3 : IVec S_ 1 := (fun x v => Host.reduce IntOp.andi x v reducesTo_S32x64x512_S_d0_1_2 h_S_) main_v2 main_c
  let main_v4 : FVec F S32x64x512 .f32 := Host.absf main_arg1
  let main_cst_0 : FVec F S_ .f32 := constant S_ .f32 0x7F800000#32
  let main_v5 : FVec F S32x64x512 .f32 := broadcastInDim S32x64x512 ![] bcast_S_S32x64x512 main_cst_0
  let main_v6 : IVec S32x64x512 1 := cmpf .olt main_v4 main_v5
  let main_c_1 : IVec S_ 1 := constantI S_ 1 1#1
  let main_v7 : IVec S_ 1 := (fun x v => Host.reduce IntOp.andi x v reducesTo_S32x64x512_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S32x64x512 : Shape := ⟨3, ![32, 64, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S512x256 : Shape := ⟨2, ![512, 256]⟩
abbrev S1x256 : Shape := ⟨2, ![1, 256]⟩
abbrev S1x1 : Shape := ⟨2, ![1, 1]⟩
abbrev S32x1 : Shape := ⟨2, ![32, 1]⟩
abbrev S8x64x512 : Shape := ⟨3, ![8, 64, 512]⟩
abbrev S8x1 : Shape := ⟨2, ![8, 1]⟩
abbrev S512x512 : Shape := ⟨2, ![512, 512]⟩
abbrev S8x64x256 : Shape := ⟨3, ![8, 64, 256]⟩
abbrev S8x256 : Shape := ⟨2, ![8, 256]⟩

abbrev nBuf : Space → Nat
  | .hbm => 14
  | .vmem => 13
  | .smem => 0
  | _ => 0

abbrev bufTy : (tb : Table) → Fin (tcTables nBuf tb) → BufTy
  | .hbm, ⟨0, _⟩ => ⟨S32x64x512, .f32⟩
  | .hbm, ⟨1, _⟩ => ⟨S32x64x512, .f32⟩
  | .hbm, ⟨2, _⟩ => ⟨S1024x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S512x256, .f32⟩
  | .hbm, ⟨9, _⟩ => ⟨S512x256, .f32⟩
  | .hbm, ⟨10, _⟩ => ⟨S1x256, .f32⟩
  | .hbm, ⟨11, _⟩ => ⟨S1x256, .f32⟩
  | .hbm, ⟨12, _⟩ => ⟨S1x1, .f32⟩
  | .hbm, ⟨13, _⟩ => ⟨S32x1, .f32⟩
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x1, .f32⟩
  | .local _ .vmem, ⟨10, _⟩ => ⟨S1x1, .f32⟩
  | .local _ .vmem, ⟨11, _⟩ => ⟨S8x1, .f32⟩
  | .local _ .vmem, ⟨12, _⟩ => ⟨S8x1, .f32⟩
  | _, _ => ⟨S32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S1024x256_S512x256_0_0 : S1024x256.Slices ![0, 0] S512x256
  slices_S1024x256_S512x256_512_0 : S1024x256.Slices ![512, 0] S512x256
  shapeCasts_S256_S1x256 : S256.ShapeCasts S1x256
  shapeCasts_S1_S1x1 : S1.ShapeCasts S1x1
  inb_S8x64x512_S8x64x512_0_0_0 : ∀ a, (![0, 0, 0] : Fin 3 → Nat) a + S8x64x512.size a ≤ S8x64x512.size a
  h_S8x64x512 : 0 < S8x64x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S8x64x512_S512x512 : S8x64x512.ShapeCasts S512x512
  shapeCasts_S512x256_S8x64x256 : S512x256.ShapeCasts S8x64x256
  reduces_S8x64x256_S8x256 : S8x64x256.Reduces [1] S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  dot_S512x512_S512x256_S512x256_1_0_0_1_n_n_wf : DotDims.WF S512x512 S512x256 S512x256 [1] [0] [0] [1] [] []
  dot_S8x256_S256x256_S8x256_1_0_0_1_n_n_wf : DotDims.WF S8x256 S256x256 S8x256 [1] [0] [0] [1] [] []
  dot_S8x256_S256x1_S8x1_1_0_0_1_n_n_wf : DotDims.WF S8x256 S256x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x512.size a ≤ S32x64x512.size a
  hwx0_0 : ∀ i : grid0.Coords, EltTy.bits .f32 = 32 ∨ (Rect.block (s := S32x64x512) S8x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x512.size a ≤ S32x64x512.size a
  hwx0_1 : ∀ i : grid0.Coords, EltTy.bits .f32 = 32 ∨ (Rect.block (s := S32x64x512) S8x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S32x1.size a
  hwx0_9 : ∀ i : grid0.Coords, EltTy.bits .f32 = 32 ∨ (Rect.block (s := S32x1) S8x1.size (cc0_transform_9 i) (hinb0_9 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x1_S8x1_1_0_0_1_n_n : DotDims S8x256 S256x1 S8x1 where
  lhsContracting := [1]
  rhsContracting := [0]
  lhsNonContracting := [0]
  rhsNonContracting := [1]
  lhsBatch := []
  rhsBatch := []
  wf := dot_S8x256_S256x1_S8x1_1_0_0_1_n_n_wf

abbrev win0_0 : Pipeline.Window sig grid0 :=
  Pipeline.Window.ofSpec (Memref.whole main_arg0) S8x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S8x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x64x512 : Shape := ⟨3, ![32, 64, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S32x64x1x512 : Shape := ⟨4, ![32, 64, 1, 512]⟩
abbrev S32x64x64x512 : Shape := ⟨4, ![32, 64, 64, 512]⟩
abbrev S32x4096x512 : Shape := ⟨3, ![32, 4096, 512]⟩
abbrev S32x1x64x512 : Shape := ⟨4, ![32, 1, 64, 512]⟩
abbrev S32x4096x1024 : Shape := ⟨3, ![32, 4096, 1024]⟩
abbrev S32x4096x256 : Shape := ⟨3, ![32, 4096, 256]⟩
abbrev S1x1x256 : Shape := ⟨3, ![1, 1, 256]⟩
abbrev S_ : Shape := ⟨0, ![]⟩
abbrev S32x256 : Shape := ⟨2, ![32, 256]⟩
abbrev S1x256 : Shape := ⟨2, ![1, 256]⟩
abbrev S32x1 : Shape := ⟨2, ![32, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x64x512, .f32⟩
  | .hbm, ⟨1, _⟩ => ⟨S32x64x512, .f32⟩
  | .hbm, ⟨2, _⟩ => ⟨S1024x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S32x64x1x512, .f32⟩
  | .hbm, ⟨9, _⟩ => ⟨S32x64x64x512, .f32⟩
  | .hbm, ⟨10, _⟩ => ⟨S32x4096x512, .f32⟩
  | .hbm, ⟨11, _⟩ => ⟨S32x1x64x512, .f32⟩
  | .hbm, ⟨12, _⟩ => ⟨S32x64x64x512, .f32⟩
  | .hbm, ⟨13, _⟩ => ⟨S32x4096x512, .f32⟩
  | .hbm, ⟨14, _⟩ => ⟨S32x4096x1024, .f32⟩
  | .hbm, ⟨15, _⟩ => ⟨S32x4096x256, .f32⟩
  | .hbm, ⟨16, _⟩ => ⟨S1x1x256, .f32⟩
  | .hbm, ⟨17, _⟩ => ⟨S32x4096x256, .f32⟩
  | .hbm, ⟨18, _⟩ => ⟨S32x4096x256, .f32⟩
  | .hbm, ⟨19, _⟩ => ⟨S_, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S32x256, .f32⟩
  | .hbm, ⟨25, _⟩ => ⟨S1x256, .f32⟩
  | .hbm, ⟨26, _⟩ => ⟨S32x256, .f32⟩
  | .hbm, ⟨27, _⟩ => ⟨S32x256, .f32⟩
  | .hbm, ⟨28, _⟩ => ⟨S32x1, .f32⟩
  | .hbm, ⟨29, _⟩ => ⟨S1x1, .f32⟩
  | .hbm, ⟨30, _⟩ => ⟨S32x1, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S_, .f32⟩
  | .hbm, ⟨38, _⟩ => ⟨S32x1, .f32⟩
  | .hbm, ⟨39, _⟩ => ⟨S32x1, .f32⟩
  | _, _ => ⟨S32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S32x64x512_S32x64x1x512_0_1_3 : S32x64x512.BroadcastsInDim S32x64x1x512 (![0, 1, 3] : Fin 3 → Fin S32x64x1x512.rank)
  bcast_S32x64x1x512_S32x64x64x512_0_1_2_3 : S32x64x1x512.BroadcastsInDim S32x64x64x512 (![0, 1, 2, 3] : Fin 4 → Fin S32x64x64x512.rank)
  shapeCasts_S32x64x64x512_S32x4096x512 : S32x64x64x512.ShapeCasts S32x4096x512
  bcast_S32x64x512_S32x1x64x512_0_2_3 : S32x64x512.BroadcastsInDim S32x1x64x512 (![0, 2, 3] : Fin 3 → Fin S32x1x64x512.rank)
  bcast_S32x1x64x512_S32x64x64x512_0_1_2_3 : S32x1x64x512.BroadcastsInDim S32x64x64x512 (![0, 1, 2, 3] : Fin 4 → Fin S32x64x64x512.rank)
  concatenates_S32x4096x512_S32x4096x512_S32x4096x1024_d2 : Shape.Concatenates [S32x4096x512, S32x4096x512] S32x4096x1024 2
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  reducesTo_S32x4096x256_S32x256_d1 : S32x4096x256.ReducesTo [1] S32x256
  h_S_ : 0 < S_.numel
  bcast_S_S32x256 : S_.BroadcastsInDim S32x256 (![] : Fin 0 → Fin S32x256.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  bcast_S_S32x1 : S_.BroadcastsInDim S32x1 (![] : Fin 0 → Fin S32x1.rank)
  dot_S32x4096x1024_S1024x256_S32x4096x256_2_0_01_1_n_n_wf : DotDims.WF S32x4096x1024 S1024x256 S32x4096x256 [2] [0] [0, 1] [1] [] []
  dot_S32x256_S256x256_S32x256_1_0_0_1_n_n_wf : DotDims.WF S32x256 S256x256 S32x256 [1] [0] [0] [1] [] []
  dot_S32x256_S256x1_S32x1_1_0_0_1_n_n_wf : DotDims.WF S32x256 S256x1 S32x1 [1] [0] [0] [1] [] []

variable [Facts₀]

def dot_S32x4096x1024_S1024x256_S32x4096x256_2_0_01_1_n_n : DotDims S32x4096x1024 S1024x256 S32x4096x256 where
  lhsContracting := [2]
  rhsContracting := [0]
  lhsNonContracting := [0, 1]
  rhsNonContracting := [1]
  lhsBatch := []
  rhsBatch := []
  wf := dot_S32x4096x1024_S1024x256_S32x4096x256_2_0_01_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x1_S32x1_1_0_0_1_n_n : DotDims S32x256 S256x1 S32x1 where
  lhsContracting := [1]
  rhsContracting := [0]
  lhsNonContracting := [0]
  rhsNonContracting := [1]
  lhsBatch := []
  rhsBatch := []
  wf := dot_S32x256_S256x1_S32x1_1_0_0_1_n_n_wf

class Facts : Prop extends Facts₀ where

variable [Facts]
-- ==== Proof.LibPairMean.lean ====
/-
  The mean over all pairs `(i, j)` of `A i + B j + c` is the mean of `A` plus the mean of `B` plus `c`: general lemmas.

  A layer that pairs every object `i` of a first set with every object `j` of a second set, applies one linear map with
  a bias to the joined feature row of each pair and averages over the `n · n` pairs has, at the pair `(i, j)`, a summand
  `A i + B j + c`: the first object's row times the upper half of the map, the second object's row times the lower
  half, and the bias. Over the reals

      (∑_{i,j} (A i + B j + c)) / (n · n) = (∑_i A i) / n + (∑_j B j) / n + c,

  which is `pairs_mean` below, on the extended reals for real `A`, `B`, `c` and any `n ≠ 0` (the law moves a factor
  across a sum, so it needs the summands finite), with the pair sum started from zero as a host reduction starts it.
  With it: the sum of the images of reals is the image of their sum (`coe_sum`), the quotient of a real by a non-zero
  real on the extended reals is the real quotient (`div_coe_coe`), and the float words `0.0`, `1.0`, `64.0`, `4096.0`
  as the reals they denote.
-/
import Mathlib.Algebra.BigOperators.Fin
import Mathlib.Algebra.BigOperators.Ring.Finset
import Mathlib.Data.EReal.Basic
import Mathlib.Tactic.Ring
import Mathlib.Tactic.FieldSimp
import Mathlib.Tactic.NormNum
import Idealize.ShloMosaic.Lib.ValueIdx
import Idealize.ShloMosaic.PureOps.Ideal

noncomputable section

namespace Cert.PairMean

open Idealize.ShloMosaic

/-! ## The words the programs write -/

theorem word_zero : Ideal.ofBits .f32 0x00000000#32 = 0 := by
  simp [Ideal.ofBits, Ideal.ieee]

theorem word_64 : Ideal.ofBits .f32 0x42800000#32 = ((64 : ℝ) : EReal) := by
  simp [Ideal.ofBits, Ideal.ieee, -EReal.coe_mul]; norm_num

theorem word_4096 : Ideal.ofBits .f32 0x45800000#32 = ((4096 : ℝ) : EReal) := by
  simp [Ideal.ofBits, Ideal.ieee, -EReal.coe_mul]; norm_num

theorem word_one : Ideal.ofBits .f32 0x3F800000#32 = 1 := by
  simp [Ideal.ofBits, Ideal.ieee, -EReal.coe_mul]; norm_num

/-! ## Sums of reals inside the extended reals -/

/-- The sum of the images of reals is the image of their sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert x s hx ih => rw [Finset.sum_insert hx, Finset.sum_insert hx, ih, EReal.coe_add]

/-- The quotient of a real by a non-zero real, on the extended reals, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

/-- The mean over all pairs `(i, j)` of `A i + B j + c` is the mean of `A` plus the mean of `B` plus `c`, for reals,
    with the pair sum started from zero as a host reduction starts it. -/
theorem pairs_mean {n : ℕ} (hn : (n : ℝ) ≠ 0) (A B : Fin n → ℝ) (c : ℝ) :
    Ideal.div ((0 : EReal) + ∑ x : Fin n × Fin n, (((A x.1 : ℝ) : EReal) + ((B x.2 : ℝ) : EReal) + ((c : ℝ) : EReal)))
        (((n : ℝ) * (n : ℝ) : ℝ) : EReal)
      = Ideal.div (∑ i, ((A i : ℝ) : EReal)) ((n : ℝ) : EReal) + Ideal.div (∑ j, ((B j : ℝ) : EReal)) ((n : ℝ) : EReal)
        + ((c : ℝ) : EReal) := by
  have hnn : (n : ℝ) * (n : ℝ) ≠ 0 := mul_ne_zero hn hn
  simp only [← EReal.coe_add, coe_sum, zero_add]
  rw [div_coe_coe _ hnn, div_coe_coe _ hn, div_coe_coe _ hn, ← EReal.coe_add, ← EReal.coe_add]
  congr 1
  rw [Fintype.sum_prod_type]
  simp only [Finset.sum_add_distrib, Finset.sum_const, Finset.card_univ, Fintype.card_fin, nsmul_eq_mul,
    ← Finset.mul_sum]
  field_simp

end Cert.PairMean

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«136529_j42434276884668_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«136529_j42434276884668_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.RelationSpec.lean ====
/-
  The relation network's result for one batch row, as the kernel arranges it and as the reference does.

  For one batch row let `o1, o2 : 64 × 512` be the two sets of objects, `Wg : 1024 × 256` and `bg : 256` the
  relation map. The reference forms, for each pair `p = 64 · i + j`, the joined row `[o1 i, o2 j]` (`pairRow`),
  multiplies it by `Wg`, adds `bg`, sums over the `4096` pairs from zero and divides by `4096` (`pairMeanRow`). The
  kernel multiplies `o1` by the upper half of `Wg` and `o2` by the lower half, averages each over its `64` objects and
  adds the two means and `bg` (`sepMeanRow`). For real inputs the two agree (`sepMeanRow_eq_pairMeanRow`): the joined
  row's product splits at column `512`, and the mean over pairs of `A i + B j + c` is the sum of the means.

  Both programs then apply the same head to the `256` means (`headRow`): a dense layer `256 → 256` with bias, a dense
  layer `256 → 1` with bias, and the logistic function.
-/
import proofs.«136529_j42434276884668_1_alg».proof.Proof.LibPairMean
import proofs.«136529_j42434276884668_1_alg».proof.Proof.LibBiasLayer

noncomputable section

namespace Cert.PairMean

open Idealize.ShloMosaic Idealize.ShloMosaic.ValueIdx Cert.DenseLayer Cert.BiasLayer

/-- Row `d` of the upper half of a `1024`-row matrix. -/
abbrev lo (d : Fin 512) : Fin 1024 := ⟨d.val, by omega⟩
/-- Row `d` of the lower half: row `512 + d` of the whole. -/
abbrev hi (d : Fin 512) : Fin 1024 := ⟨512 + d.val, by omega⟩

/-- The joined feature row of pair `p = 64 · i + j`: object `i` of the first set, then object `j` of the second. -/
def pairRow (o1 o2 : Fin 64 → Fin 512 → EReal) (p : Fin 4096) (e : Fin 1024) : EReal :=
  if h : e.val < 512 then o1 ⟨p.val / 64, by omega⟩ ⟨e.val, h⟩ else o2 ⟨p.val % 64, by omega⟩ ⟨e.val - 512, by omega⟩

/-- The reference's relation mean at column `k`: the sum from zero over all pairs of the joined row times `Wg` plus
    `bg`, over `4096` (the words as the program writes them). -/
def pairMeanRow (o1 o2 : Fin 64 → Fin 512 → EReal) (Wg : Mat 1024 256) (bg : Row 256) (k : Fin 256) : EReal :=
  Ideal.div (Ideal.ofBits .f32 0x00000000#32
      + ∑ p : Fin 4096, ((∑ e : Fin 1024, pairRow o1 o2 p e * Wg (ix2 e k)) + bg (ix1 k)))
    (Ideal.ofBits .f32 0x45800000#32)

/-- The kernel's relation mean at column `k`: the mean over the first set of its products with the upper half of
    `Wg`, plus the mean over the second set of its products with the lower half, plus `bg`. -/
def sepMeanRow (o1 o2 : Fin 64 → Fin 512 → EReal) (Wg : Mat 1024 256) (bg : Row 256) (k : Fin 256) : EReal :=
  Ideal.div (∑ n : Fin 64, ∑ d : Fin 512, o1 n d * Wg (ix2 (lo d) k)) (Ideal.ofBits .f32 0x42800000#32)
    + Ideal.div (∑ n : Fin 64, ∑ d : Fin 512, o2 n d * Wg (ix2 (hi d) k)) (Ideal.ofBits .f32 0x42800000#32)
    + bg (ix1 k)

/-- The joined row times a column of `Wg` is the first object's row times the upper half plus the second object's
    row times the lower half (no finiteness needed: a sum is only regrouped). -/
theorem pairRow_dot (o1 o2 : Fin 64 → Fin 512 → EReal) (Wg : Mat 1024 256) (k : Fin 256) (x : Fin 64 × Fin 64) :
    (∑ e : Fin 1024, pairRow o1 o2 (finProdFinEquiv x) e * Wg (ix2 e k))
      = (∑ d : Fin 512, o1 x.1 d * Wg (ix2 (lo d) k)) + ∑ d : Fin 512, o2 x.2 d * Wg (ix2 (hi d) k) := by
  have hi' : (finProdFinEquiv x : Fin 4096).val / 64 = x.1.val := by
    show (x.2.val + 64 * x.1.val) / 64 = x.1.val
    have := x.2.isLt; omega
  have hj' : (finProdFinEquiv x : Fin 4096).val % 64 = x.2.val := by
    show (x.2.val + 64 * x.1.val) % 64 = x.2.val
    have := x.2.isLt; omega
  rw [Fin.sum_univ_add (a := 512) (b := 512) (fun e : Fin 1024 => pairRow o1 o2 (finProdFinEquiv x) e * Wg (ix2 e k))]
  congr 1
  · refine Finset.sum_congr rfl fun d _ => ?_
    have hd : (Fin.castAdd 512 d : Fin 1024) = lo d := Fin.ext rfl
    rw [hd]
    unfold pairRow
    rw [dif_pos (show (lo d).val < 512 from d.isLt)]
    congr 2
    exact Fin.ext hi'
  · refine Finset.sum_congr rfl fun d _ => ?_
    have hd : (Fin.natAdd 512 d : Fin 1024) = hi d := Fin.ext rfl
    rw [hd]
    unfold pairRow
    rw [dif_neg (show ¬ (hi d).val < 512 by show ¬ 512 + d.val < 512; omega)]
    congr 2
    · exact Fin.ext hj'
    · exact Fin.ext (by show 512 + d.val - 512 = d.val; omega)

/-- For real inputs the kernel's two means and the reference's mean over pairs are the same number. -/
theorem sepMeanRow_eq_pairMeanRow (o1 o2 : Fin 64 → Fin 512 → EReal) (Wg : Mat 1024 256) (bg : Row 256)
    (h1 : ∀ n d, ∃ r : ℝ, o1 n d = r) (h2 : ∀ n d, ∃ r : ℝ, o2 n d = r) (hW : ∀ i, ∃ r : ℝ, Wg i = r)
    (hb : ∀ i, ∃ r : ℝ, bg i = r) (k : Fin 256) :
    sepMeanRow o1 o2 Wg bg k = pairMeanRow o1 o2 Wg bg k := by
  choose r1 hr1 using h1
  choose r2 hr2 using h2
  choose rW hrW using hW
  choose rb hrb using hb
  have hA : ∀ i : Fin 64, (∑ d : Fin 512, o1 i d * Wg (ix2 (lo d) k))
      = ((∑ d : Fin 512, r1 i d * rW (ix2 (lo d) k) : ℝ) : EReal) := fun i => by
    rw [← coe_sum]; exact Finset.sum_congr rfl fun d _ => by rw [hr1, hrW, EReal.coe_mul]
  have hB : ∀ j : Fin 64, (∑ d : Fin 512, o2 j d * Wg (ix2 (hi d) k))
      = ((∑ d : Fin 512, r2 j d * rW (ix2 (hi d) k) : ℝ) : EReal) := fun j => by
    rw [← coe_sum]; exact Finset.sum_congr rfl fun d _ => by rw [hr2, hrW, EReal.coe_mul]
  unfold sepMeanRow pairMeanRow
  rw [← Equiv.sum_comp (finProdFinEquiv (m := 64) (n := 64))
    (fun p : Fin 4096 => (∑ e : Fin 1024, pairRow (fun n d => o1 n d) (fun n d => o2 n d) p e * Wg (ix2 e k)) + bg (ix1 k))]
  simp only [pairRow_dot, hA, hB, hrb, word_zero, word_64, word_4096]
  have h := pairs_mean (n := 64) (by norm_num) (fun i => ∑ d : Fin 512, r1 i d * rW (ix2 (lo d) k))
    (fun j => ∑ d : Fin 512, r2 j d * rW (ix2 (hi d) k)) (rb (ix1 k))
  have e64 : (((64 : ℕ) : ℝ)) = 64 := by norm_num
  have e4096 : ((64 : ℝ) * (64 : ℝ)) = 4096 := by norm_num
  rw [e64, e4096] at h
  exact h.symm

/-- The head both programs apply to the means `g` of one batch row: `(g · Wf1 + bf1) · Wf2 + bf2` through the
    logistic function. -/
def headRow (g : Fin 256 → EReal) (Wf1 : Mat 256 256) (bf1 : Row 256) (Wf2 : Mat 256 1) (bf2 : Row 1) : EReal :=
  Ideal.logistic ((∑ q : Fin 256, ((∑ k : Fin 256, g k * Wf1 (ix2 k q)) + bf1 (ix1 q)) * Wf2 (ix2 q (0 : Fin 1)))
    + bf2 (ix1 (0 : Fin 1)))

/-- A `[a, 64, 512]` array of extended reals, indexed as the arrays are. -/
abbrev Ten (a : ℕ) : Type := (⟨3, ![a, 64, 512]⟩ : Shape).Idx → EReal

/-- The objects of batch row `b`. -/
abbrev objs {a : ℕ} (O : Ten a) (b : Fin a) : Fin 64 → Fin 512 → EReal := fun n d => O (ix3 b n d)

/-- The network's result as the kernel arranges it, one entry per batch row. -/
def sepOut {a : ℕ} (O1 O2 : Ten a) (Wg : Mat 1024 256) (bg : Row 256) (Wf1 : Mat 256 256) (bf1 : Row 256)
    (Wf2 : Mat 256 1) (bf2 : Row 1) : Mat a 1 :=
  fun i => headRow (sepMeanRow (objs O1 (i 0)) (objs O2 (i 0)) Wg bg) Wf1 bf1 Wf2 bf2

/-- The network's result as the reference arranges it. -/
def pairOut {a : ℕ} (O1 O2 : Ten a) (Wg : Mat 1024 256) (bg : Row 256) (Wf1 : Mat 256 256) (bf1 : Row 256)
    (Wf2 : Mat 256 1) (bf2 : Row 1) : Mat a 1 :=
  fun i => headRow (pairMeanRow (objs O1 (i 0)) (objs O2 (i 0)) Wg bg) Wf1 bf1 Wf2 bf2

/-- For real inputs the two arrangements give the same result. -/
theorem sepOut_eq_pairOut {a : ℕ} (O1 O2 : Ten a) (Wg : Mat 1024 256) (bg : Row 256) (Wf1 : Mat 256 256)
    (bf1 : Row 256) (Wf2 : Mat 256 1) (bf2 : Row 1)
    (h1 : ∀ i, ∃ r : ℝ, O1 i = r) (h2 : ∀ i, ∃ r : ℝ, O2 i = r) (hW : ∀ i, ∃ r : ℝ, Wg i = r)
    (hb : ∀ i, ∃ r : ℝ, bg i = r) :
    sepOut O1 O2 Wg bg Wf1 bf1 Wf2 bf2 = pairOut O1 O2 Wg bg Wf1 bf1 Wf2 bf2 :=
  funext fun i => congrArg (fun g => headRow g Wf1 bf1 Wf2 bf2)
    (funext fun k => sepMeanRow_eq_pairMeanRow _ _ Wg bg (fun n d => h1 _) (fun n d => h2 _) hW hb k)

end Cert.PairMean

end
-- ==== Proof.FiniteInputs.lean ====
/-
  Under the precondition the first four arguments hold real numbers.

  The precondition is the conjunction, over the eight arguments, of `all (|x| < +∞)`. An extended real whose absolute
  value `max x (-x)` is below `+∞` is neither infinity, so it is a real. The relation mean's law needs this of the two
  object arrays, of `Wg` and of `bg`: the first four conjuncts.
-/
import proofs.«136529_j42434276884668_1_alg».proof.Pre_finite_inputs
import proofs.«136529_j42434276884668_1_alg».proof.Proof.Gen.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

instance : Subsingleton S_.Idx := ⟨fun a b => funext fun d => d.elim0⟩

/-- The word the precondition compares against is `+∞`. -/
theorem word_inf : Ideal.ofBits .f32 0x7F800000#32 = (⊤ : EReal) := by
  simp [Ideal.ofBits, Ideal.ieee]

/-- An extended real whose absolute value compares below `+∞` is a real. -/
theorem real_of_abs_lt (x : EReal) (h : Ideal.cmp .olt (max x (-x)) (Ideal.ofBits .f32 0x7F800000#32) = 1#1) :
    ∃ r : ℝ, x = r := by
  rw [word_inf] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  have h1 : x < ⊤ := lt_of_le_of_lt (le_max_left _ _) hlt
  have h2 : -x < ⊤ := lt_of_le_of_lt (le_max_right _ _) hlt
  have hb : x ≠ ⊥ := fun e => by rw [e, EReal.neg_bot] at h2; exact lt_irrefl _ h2
  exact ⟨x.toReal, (EReal.coe_toReal (ne_of_lt h1) hb).symm⟩

/-- One conjunct of the precondition: `all (|x| < +∞)` over an array says every entry is a real. -/
theorem real_of_all {s : Shape} {axes : List (Fin s.rank)} (x : FVec Ideal s .f32)
    (hb : S_.BroadcastsInDim s ![]) (h : s.ReducesTo axes S_) (hu : 0 < S_.numel) (init : S_.Idx → BitVec 1)
    (e : Host.reduce IntOp.andi
        (cmpf .olt (Host.absf x) (broadcastInDim s ![] hb (constant (F := Ideal) S_ .f32 0x7F800000#32))) init h hu ix0 = 1#1)
    (i : s.Idx) : ∃ r : ℝ, x i = r := by
  have hi := Host.reduce_andi_all _ init h hu ix0 e i
  refine real_of_abs_lt (x i) ?_
  have hc : broadcastInDim s ![] hb (constant (F := Ideal) S_ .f32 0x7F800000#32) i = Ideal.ofBits .f32 0x7F800000#32 :=
    broadcastInDim_apply _ hb _ i ix0 fun a => a.elim0
  rw [← hc]
  exact hi

variable (a0 a1 : FVec Ideal S32x64x512 .f32) (a2 : FVec Ideal S1024x256 .f32) (a3 : FVec Ideal S256 .f32)
  (a4 : FVec Ideal S256x256 .f32) (a5 : FVec Ideal S256 .f32) (a6 : FVec Ideal S256x1 .f32) (a7 : FVec Ideal S1 .f32)

/-- Under the precondition the object arrays, `Wg` and `bg` hold reals. -/
theorem reals_of_pre (hpre : fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h := congrFun hpre ix0
  dsimp only [fn, fn_part1, fn_part2] at h
  obtain ⟨h33, -⟩ := IntOp.andi_eq_one.1 h
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_of_all a0 _ _ _ _ h3, real_of_all a1 _ _ _ _ h7, real_of_all a2 _ _ _ _ h12, real_of_all a3 _ _ _ _ h17⟩

end Cert.Pre_finite_inputs.Finite

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«136529_j42434276884668_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.KernelBody.lean ====
/-
  The kernel body's two payloads read at an index at the ideal values.

  The body holds, for a block of `8` batch rows, the objects `v0, v2 : 8 × 64 × 512`, the two halves `v4, v7 : 512 × 256`
  of the relation map and its bias row `v22 : 1 × 256`. It flattens the objects to `512` rows, multiplies by the half
  map, lays the products back out as `8 × 64 × 256` and sums over the `64` objects: at `(p, k)` this is
  `∑_n ∑_d v (p, n, d) · w (d, k)` (`objects_product_apply`; a change of float format is the identity here). Divided by
  `64`, added for the two sets and to the bias, this is the block's relation mean `blockMean`. The first payload is the
  first dense layer of the head on it (`hidden_apply`), the second payload the second dense layer and the logistic
  function (`result_apply`).
-/
import proofs.«136529_j42434276884668_1_alg».proof.Proof.Gen.KernelIdeal.Skeleton
import proofs.«136529_j42434276884668_1_alg».proof.Proof.RelationSpec
import proofs.«136529_j42434276884668_1_alg».proof.Proof.LibPlainDot
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.DenseLayer Cert.BiasLayer Cert.PairMean

/-- The three products' dimension numbers are those of plain products. -/
theorem plain_rel : PlainDot (a := 512) (K := 512) (N := 256) dot_S512x512_S512x256_S512x256_1_0_0_1_n_n :=
  plainDot_of_axes _ rfl rfl rfl rfl rfl rfl
theorem plain_256 : PlainDot (a := 8) (K := 256) (N := 256) dot_S8x256_S256x256_S8x256_1_0_0_1_n_n :=
  plainDot_of_axes _ rfl rfl rfl rfl rfl rfl
theorem plain_1 : PlainDot (a := 8) (K := 256) (N := 1) dot_S8x256_S256x1_S8x1_1_0_0_1_n_n :=
  plainDot_of_axes _ rfl rfl rfl rfl rfl rfl

/-- One set's objects times one half of the relation map, summed over the objects, at `(p, k)`. -/
theorem objects_product_apply (x : FVec Ideal S8x64x512 .f32) (w : FVec Ideal S512x256 .f32) (p : Fin 8) (k : Fin 256) :
    multiReduction .add [1] S8x256
        (shapeCast S8x64x256
          (matmul dot_S512x512_S512x256_S512x256_1_0_0_1_n_n none
            (shapeCast S512x512 (truncf .bf16 x bitsLt_bf16_f32) shapeCasts_S8x64x512_S512x512)
            (truncf .bf16 (shapeCast S512x256 w shapeCasts_S512x256_S512x256) bitsLt_bf16_f32)
            (constant S512x256 .f32 0x00000000#32))
          shapeCasts_S512x256_S8x64x256)
        0x00000000#32 reduces_S8x64x256_S8x256 (.inl rfl) rfl (ix2 p k)
      = ∑ n : Fin 64, ∑ d : Fin 512, x (ix3 p n d) * w (ix2 d k) := by
  refine (Ideal.multiReduction_add_single _ 0x00000000#32 reduces_S8x64x256_S8x256 (.inl rfl) rfl (ix2 p k)).trans ?_
  show (∑ n : Fin 64, _) = _
  refine Finset.sum_congr rfl fun n _ => ?_
  have hl : reduces_S8x64x256_S8x256.lift (ix2 p k) n = ix3 p n k :=
    funext fun a => Fin.ext (by match a with | ⟨0, _⟩ => rfl | ⟨1, _⟩ => rfl | ⟨2, _⟩ => rfl)
  have hp := p.isLt; have hn := n.isLt
  rw [hl, shapeCast_apply _ shapeCasts_S512x256_S8x64x256 (ix3 p n k) (ix2 (⟨p.val * 64 + n.val, by omega⟩ : Fin 512) k)
    (by rw [Shape.rowMajor_val_two, Shape.rowMajor_val_three]; rfl)]
  refine (matmul_zero_apply plain_rel none _ _ _).trans ?_
  unfold prodRow
  refine Finset.sum_congr rfl fun d _ => ?_
  show shapeCast S512x512 x shapeCasts_S8x64x512_S512x512 (ix2 (⟨p.val * 64 + n.val, by omega⟩ : Fin 512) d)
      * shapeCast S512x256 w shapeCasts_S512x256_S512x256 (ix2 d k) = _
  rw [shapeCast_self, shapeCast_apply x shapeCasts_S8x64x512_S512x512 (ix2 (⟨p.val * 64 + n.val, by omega⟩ : Fin 512) d) (ix3 p n d)
    (by rw [Shape.rowMajor_val_two, Shape.rowMajor_val_three]; rfl)]

/-- The block's relation mean at `(p, k)`: the two sets' products averaged over their `64` objects, plus the bias. -/
def blockMean (v0 v2 : FVec Ideal S8x64x512 .f32) (v4 v7 : FVec Ideal S512x256 .f32) (v22 : FVec Ideal S1x256 .f32)
    (p : Fin 8) (k : Fin 256) : EReal :=
  Ideal.div (∑ n : Fin 64, ∑ d : Fin 512, v0 (ix3 p n d) * v4 (ix2 d k)) (Ideal.ofBits .f32 0x42800000#32)
    + Ideal.div (∑ n : Fin 64, ∑ d : Fin 512, v2 (ix3 p n d) * v7 (ix2 d k)) (Ideal.ofBits .f32 0x42800000#32)
    + v22 (ix2 (0 : Fin 1) k)

/-- The first payload at `(p, q)`: the block's relation mean through the first dense layer. -/
theorem hidden_apply (v0 v2 : Vec Ideal S8x64x512 .f32) (v4 v7 : Vec Ideal S512x256 .f32) (v22 : Vec Ideal S1x256 .f32)
    (v27 : Vec Ideal S256x256 .f32) (v29 : Vec Ideal S1x256 .f32) (p : Fin 8) (q : Fin 256) :
    k0_pay2 (F := Ideal) v0 v2 v4 v7 v22 v27 v29 (ix2 p q)
      = (∑ k : Fin 256, blockMean v0 v2 v4 v7 v22 p k * v27 (ix2 k q)) + v29 (ix2 (0 : Fin 1) q) := by
  unfold k0_pay2
  show FloatOps.matmul (F := Ideal) dot_S8x256_S256x256_S8x256_1_0_0_1_n_n none _ _ (constant (F := Ideal) S8x256 .f32 0x00000000#32) (ix2 p q)
      + broadcastTo S8x256 (shapeCast S1x256 v29 shapeCasts_S1x256_S1x256) broadcasts_S1x256_S8x256 (ix2 p q) = _
  rw [matmul_zero_apply plain_256, broadcastTo_1b_ab_apply, shapeCast_self v29]
  unfold prodRow
  refine congrArg (· + v29 (ix2 (0 : Fin 1) q)) (Finset.sum_congr rfl fun k _ => ?_)
  refine congrArg (· * v27 (ix2 k q)) ?_
  unfold blockMean
  show Ideal.div (multiReduction (F := Ideal) .add [1] S8x256 _ 0x00000000#32 reduces_S8x64x256_S8x256 (.inl rfl) rfl (ix2 p k))
        (Ideal.ofBits .f32 0x42800000#32)
      + Ideal.div (multiReduction (F := Ideal) .add [1] S8x256 _ 0x00000000#32 reduces_S8x64x256_S8x256 (.inl rfl) rfl (ix2 p k))
        (Ideal.ofBits .f32 0x42800000#32)
      + broadcastTo S8x256 (shapeCast S1x256 v22 shapeCasts_S1x256_S1x256) broadcasts_S1x256_S8x256 (ix2 p k) = _
  rw [objects_product_apply v0 v4 p k, objects_product_apply v2 v7 p k, broadcastTo_1b_ab_apply, shapeCast_self v22]

/-- The second payload at `(p, 0)`: the second dense layer and the logistic function. -/
theorem result_apply (v34 : FVec Ideal S8x256 .f32) (v35 : Vec Ideal S256x1 .f32) (v37 : Vec Ideal S1x1 .f32) (p : Fin 8) :
    k0_pay1 (F := Ideal) v34 v35 v37 (ix2 p (0 : Fin 1))
      = Ideal.logistic ((∑ q : Fin 256, v34 (ix2 p q) * v35 (ix2 q (0 : Fin 1))) + v37 (ix2 (0 : Fin 1) (0 : Fin 1))) := by
  unfold k0_pay1
  show Ideal.logistic (FloatOps.matmul (F := Ideal) dot_S8x256_S256x1_S8x1_1_0_0_1_n_n none _ _ (constant (F := Ideal) S8x1 .f32 0x00000000#32) (ix2 p (0 : Fin 1))
      + broadcastTo S8x1 (shapeCast S1x1 v37 shapeCasts_S1x1_S1x1) broadcasts_S1x1_S8x1 (ix2 p (0 : Fin 1))) = _
  rw [matmul_zero_apply plain_1, broadcastTo_1b_ab_apply, shapeCast_self v37]
  rfl

/-- The body's result at an index `j` of its `8 × 1` block is the network's result (as the kernel arranges it) at any
    index `i` of the whole `a × 1` result whose batch row holds the objects the block's row `j 0` holds, when the
    block's other operands are the two halves of `Wg`, the biases as rows, and the head's matrices. -/
theorem body_point {a : ℕ} (x0 x1 : Vec Ideal S8x64x512 .f32) (x2 x3 : Vec Ideal S512x256 .f32) (x4 : Vec Ideal S1x256 .f32)
    (x5 : Vec Ideal S256x256 .f32) (x6 : Vec Ideal S1x256 .f32) (x7 : Vec Ideal S256x1 .f32) (x8 : Vec Ideal S1x1 .f32)
    (O1 O2 : Ten a) (Wg : Mat 1024 256) (bg : Row 256) (Wf1 : Mat 256 256) (bf1 : Row 256) (Wf2 : Mat 256 1) (bf2 : Row 1)
    (j : S8x1.Idx) (i : (⟨2, ![a, 1]⟩ : Shape).Idx)
    (h0 : ∀ n d, x0 (ix3 (j 0) n d) = O1 (ix3 (i 0) n d)) (h1 : ∀ n d, x1 (ix3 (j 0) n d) = O2 (ix3 (i 0) n d))
    (h2 : ∀ d k, x2 (ix2 d k) = Wg (ix2 (lo d) k)) (h3 : ∀ d k, x3 (ix2 d k) = Wg (ix2 (hi d) k))
    (h4 : ∀ k, x4 (ix2 (0 : Fin 1) k) = bg (ix1 k)) (h5 : ∀ k q, x5 (ix2 k q) = Wf1 (ix2 k q))
    (h6 : ∀ q, x6 (ix2 (0 : Fin 1) q) = bf1 (ix1 q)) (h7 : ∀ q, x7 (ix2 q (0 : Fin 1)) = Wf2 (ix2 q (0 : Fin 1)))
    (h8 : x8 (ix2 (0 : Fin 1) (0 : Fin 1)) = bf2 (ix1 (0 : Fin 1))) :
    k0_pay1 (F := Ideal) (k0_pay2 (F := Ideal) x0 x1 x2 x3 x4 x5 x6) x7 x8 j
      = sepOut O1 O2 Wg bg Wf1 bf1 Wf2 bf2 i := by
  obtain ⟨p, u, rfl⟩ : ∃ (p : Fin 8) (u : Fin 1), j = ix2 p u := ⟨j 0, j 1, eq_ix2 j⟩
  obtain rfl : u = 0 := Subsingleton.elim _ _
  rw [result_apply]
  unfold sepOut headRow
  rw [h8]
  refine congrArg (fun s => Ideal.logistic (s + bf2 (ix1 (0 : Fin 1)))) (Finset.sum_congr rfl fun q _ => ?_)
  rw [hidden_apply, h6, h7]
  refine congrArg (fun s => (s + bf1 (ix1 q)) * Wf2 (ix2 q (0 : Fin 1))) (Finset.sum_congr rfl fun k _ => ?_)
  rw [h5]
  refine congrArg (· * Wf1 (ix2 k q)) ?_
  unfold blockMean sepMeanRow
  rw [h4]
  simp only [h2, h3]
  have e0 : ∀ n d, x0 (ix3 p n d) = objs O1 (i 0) n d := h0
  have e1 : ∀ n d, x1 (ix3 p n d) = objs O2 (i 0) n d := h1
  simp only [e0, e1]

end Cert.KernelIdeal.Body

end
-- ==== Proof.KernelValue.lean ====
/-
  The kernel's result array after the run is `sepOut` of the argument arrays.

  Before the region the host cuts `Wg` into its upper and lower halves and sets the three bias vectors as rows; the
  region finds the arguments themselves unchanged. At grid point `t` the two object windows hold batch rows
  `8 t … 8 t + 7`, the other windows their whole arrays, and the output window is rows `8 t … 8 t + 7` of the
  `32 × 1` result. So what point `t` writes back is block `t` of `sepOut` (`flushed_eq`), the four blocks cover the
  result, and the array after the run is `sepOut` everywhere (`final`).
-/
import proofs.«136529_j42434276884668_1_alg».proof.Proof.Gen.KernelIdeal.Value
import proofs.«136529_j42434276884668_1_alg».proof.Proof.KernelBody
import Idealize.ShloMosaic.Lib.StableHlo.Run
import Idealize.ShloMosaic.Lib.Pipeline.Value

noncomputable section

namespace Cert.KernelIdeal.RelValue

open Cert.KernelIdeal Cert.KernelIdeal.Gen Cert.KernelIdeal.Value Idealize.ShloMosaic Idealize.ShloMosaic.TcCoe Idealize.SL.Sem
open Idealize.ShloMosaic.ValueIdx Cert.DenseLayer Cert.BiasLayer Cert.PairMean Cert.KernelIdeal.Body
open Idealize.ShloMosaic.Pipeline (Dat)

variable (m : (ℓ : Loc nD τ sig) → Buf (Elt Ideal) ℓ) (ρ : Dev nD → PrngReg)

/-- The result array as one function of the argument arrays. -/
abbrev G (c : Dev nD) : S32x1.Idx → EReal :=
  sepOut (a := 32) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## What the host operations before the region leave -/

theorem upper_half (c : Dev nD) : (V m c main_v0 : S512x256.Idx → EReal)
    = extractStridedSlice S512x256 ![0, 0] (m ((c : Thread nD τ).loc main_arg2)) slices_S1024x256_S512x256_0_0 := by
  dsimp only [Gen.V, Gen.hostOps0]; after_results

theorem lower_half (c : Dev nD) : (V m c main_v1 : S512x256.Idx → EReal)
    = extractStridedSlice S512x256 ![512, 0] (m ((c : Thread nD τ).loc main_arg2)) slices_S1024x256_S512x256_512_0 := by
  dsimp only [Gen.V, Gen.hostOps0]; after_results

theorem bias_g_row (c : Dev nD) : (V m c main_v2 : S1x256.Idx → EReal)
    = shapeCast S1x256 (m ((c : Thread nD τ).loc main_arg3)) shapeCasts_S256_S1x256 := by
  dsimp only [Gen.V, Gen.hostOps0]; after_results; rfl

theorem bias_1_row (c : Dev nD) : (V m c main_v3 : S1x256.Idx → EReal)
    = shapeCast S1x256 (m ((c : Thread nD τ).loc main_arg5)) shapeCasts_S256_S1x256 := by
  dsimp only [Gen.V, Gen.hostOps0]; after_results; rfl

theorem bias_2_row (c : Dev nD) : (V m c main_v4 : S1x1.Idx → EReal)
    = shapeCast S1x1 (m ((c : Thread nD τ).loc main_arg7)) shapeCasts_S1_S1x1 := by
  dsimp only [Gen.V, Gen.hostOps0]; after_results; rfl

/-! ## The windows' blocks as pieces of the arguments -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the four grid points: the two object windows move with the output window
    along the batch axis; every other block index is zero. -/
theorem idx_facts : ∀ t : Fin cfg0.N,
    win0_0.index t (0 : Fin 3) = win0_9.index t (0 : Fin 2) ∧ win0_0.index t (1 : Fin 3) = 0 ∧ win0_0.index t (2 : Fin 3) = 0
    ∧ win0_1.index t (0 : Fin 3) = win0_9.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- WHAT POINT `t` WRITES BACK is block `t` of `G`. -/
theorem flushed_eq (c : Dev nD) (t : Fin cfg0.N) :
    (dats m 0 c).flushed 9 t = ((cfg0.win 9).blk t).view.read (Elt Ideal) (G m c) := by
  rw [Value.flushed9]
  unfold out0_9
  rw [View.canon_unit_zero hz2]
  simp only [View.ld_unit_zero (S := S8x64x512) hz3, View.ld_unit_zero (S := S512x256) hz2,
    View.ld_unit_zero (S := S1x256) hz2, View.ld_unit_zero (S := S256x256) hz2, View.ld_unit_zero (S := S256x1) hz2,
    View.ld_unit_zero (S := S1x1) hz2]
  obtain ⟨e00, e01, e02, e10, e11, e12, e20, e21, e30, e31, e40, e41, e50, e51, e60, e61, e70, e71, e80, e81, e90, e91⟩ :=
    idx_facts t
  funext j
  show k0_pay1 (F := Ideal) (k0_pay2 (F := Ideal) (iblk m c 0 t) (iblk m c 1 t) (iblk m c 2 t) (iblk m c 3 t) (iblk m c 4 t)
      (iblk m c 5 t) (iblk m c 6 t)) (iblk m c 7 t) (iblk m c 8 t) j = G m c (((cfg0.win 9).blk t).view.emb j)
  refine body_point (a := 32) (iblk m c 0 t) (iblk m c 1 t) (iblk m c 2 t) (iblk m c 3 t) (iblk m c 4 t) (iblk m c 5 t)
    (iblk m c 6 t) (iblk m c 7 t) (iblk m c 8 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) j (((cfg0.win 9).blk t).view.emb j)
    ?_ ?_ ?_ ?_ ?_ ?_ ?_ ?_ ?_
  · intro n d
    show V m c main_arg0 (((cfg0.win 0).blk t).view.emb (ix3 (j 0) n d)) = _
    rw [V_main_arg0]
    refine congrArg (m ((c : Thread nD τ).loc main_arg0)) (funext fun a => Fin.ext ?_)
    match a with
    | ⟨0, _⟩ => show win0_0.index t (0 : Fin 3) * 8 + 1 * (j 0).val = win0_9.index t (0 : Fin 2) * 8 + 1 * (j 0).val; omega
    | ⟨1, _⟩ => show win0_0.index t (1 : Fin 3) * 64 + 1 * n.val = n.val; omega
    | ⟨2, _⟩ => show win0_0.index t (2 : Fin 3) * 512 + 1 * d.val = d.val; omega
  · intro n d
    show V m c main_arg1 (((cfg0.win 1).blk t).view.emb (ix3 (j 0) n d)) = _
    rw [V_main_arg1]
    refine congrArg (m ((c : Thread nD τ).loc main_arg1)) (funext fun a => Fin.ext ?_)
    match a with
    | ⟨0, _⟩ => show win0_1.index t (0 : Fin 3) * 8 + 1 * (j 0).val = win0_9.index t (0 : Fin 2) * 8 + 1 * (j 0).val; omega
    | ⟨1, _⟩ => show win0_1.index t (1 : Fin 3) * 64 + 1 * n.val = n.val; omega
    | ⟨2, _⟩ => show win0_1.index t (2 : Fin 3) * 512 + 1 * d.val = d.val; omega
  · intro d k
    show V m c main_v0 (((cfg0.win 2).blk t).view.emb (ix2 d k)) = _
    rw [upper_half]
    refine extractStridedSlice_apply ![0, 0] _ slices_S1024x256_S512x256_0_0 _ (ix2 (lo d) k) fun a => ?_
    match a with
    | ⟨0, _⟩ => show d.val = 0 + (win0_2.index t (0 : Fin 2) * 512 + 1 * d.val); omega
    | ⟨1, _⟩ => show k.val = 0 + (win0_2.index t (1 : Fin 2) * 256 + 1 * k.val); omega
  · intro d k
    show V m c main_v1 (((cfg0.win 3).blk t).view.emb (ix2 d k)) = _
    rw [lower_half]
    refine extractStridedSlice_apply ![512, 0] _ slices_S1024x256_S512x256_512_0 _ (ix2 (hi d) k) fun a => ?_
    match a with
    | ⟨0, _⟩ => show 512 + d.val = 512 + (win0_3.index t (0 : Fin 2) * 512 + 1 * d.val); omega
    | ⟨1, _⟩ => show k.val = 0 + (win0_3.index t (1 : Fin 2) * 256 + 1 * k.val); omega
  · intro k
    show V m c main_v2 (((cfg0.win 4).blk t).view.emb (ix2 (0 : Fin 1) k)) = _
    rw [bias_g_row]
    refine shapeCast_apply _ shapeCasts_S256_S1x256 _ (ix1 k) ?_
    rw [Shape.rowMajor_val_one, Shape.rowMajor_val_two]
    show k.val = (win0_4.index t (0 : Fin 2) * 1 + 1 * 0) * 256 + (win0_4.index t (1 : Fin 2) * 256 + 1 * k.val)
    omega
  · intro k q
    show V m c main_arg4 (((cfg0.win 5).blk t).view.emb (ix2 k q)) = _
    rw [V_main_arg4]
    refine congrArg (m ((c : Thread nD τ).loc main_arg4)) (funext fun a => Fin.ext ?_)
    match a with
    | ⟨0, _⟩ => show win0_5.index t (0 : Fin 2) * 256 + 1 * k.val = k.val; omega
    | ⟨1, _⟩ => show win0_5.index t (1 : Fin 2) * 256 + 1 * q.val = q.val; omega
  · intro q
    show V m c main_v3 (((cfg0.win 6).blk t).view.emb (ix2 (0 : Fin 1) q)) = _
    rw [bias_1_row]
    refine shapeCast_apply _ shapeCasts_S256_S1x256 _ (ix1 q) ?_
    rw [Shape.rowMajor_val_one, Shape.rowMajor_val_two]
    show q.val = (win0_6.index t (0 : Fin 2) * 1 + 1 * 0) * 256 + (win0_6.index t (1 : Fin 2) * 256 + 1 * q.val)
    omega
  · intro q
    show V m c main_arg6 (((cfg0.win 7).blk t).view.emb (ix2 q (0 : Fin 1))) = _
    rw [V_main_arg6]
    refine congrArg (m ((c : Thread nD τ).loc main_arg6)) (funext fun a => Fin.ext ?_)
    match a with
    | ⟨0, _⟩ => show win0_7.index t (0 : Fin 2) * 256 + 1 * q.val = q.val; omega
    | ⟨1, _⟩ => show win0_7.index t (1 : Fin 2) * 1 + 1 * 0 = 0; omega
  · show V m c main_v4 (((cfg0.win 8).blk t).view.emb (ix2 (0 : Fin 1) (0 : Fin 1))) = _
    rw [bias_2_row]
    refine shapeCast_apply _ shapeCasts_S1_S1x1 _ (ix1 (0 : Fin 1)) ?_
    rw [Shape.rowMajor_val_one, Shape.rowMajor_val_two]
    show 0 = (win0_8.index t (0 : Fin 2) * 1 + 1 * 0) * 1 + (win0_8.index t (1 : Fin 2) * 1 + 1 * 0)
    omega

/-- An index of the result is in point `t`'s block iff each coordinate is in the block's range on its axis. -/
theorem mem_blk (t : Fin cfg0.N) (i : S32x1.Idx) :
    i ∈ ((cfg0.win 9).blk t).view.set ↔ ∀ a : Fin 2, win0_9.index t a * S8x1.size a ≤ (i a).val
      ∧ (i a).val < win0_9.index t a * S8x1.size a + S8x1.size a := by
  show i ∈ ((View.whole main_v5).slice (win0_9.rect t)).set ↔ _
  rw [View.set_slice_whole, Rect.mem_set_unit]
  exact Iff.rfl

/-- Every batch row `b` is in the block of point `b / 8`. -/
theorem cover (i : S32x1.Idx) : ∃ t : Fin cfg0.N, (cfg0.win 9).flush t = true ∧ i ∈ ((cfg0.win 9).blk t).view.set := by
  have hi0 : (i 0).val < 32 := (i 0).isLt
  have hi1 : (i 1).val < 1 := (i 1).isLt
  have hN : cfg0.N = 4 := N_0
  refine ⟨⟨(i 0).val / 8, by rw [hN]; omega⟩, flush0_9 _, ?_⟩
  rw [mem_blk]
  obtain ⟨-, -, -, -, -, -, -, -, -, -, -, -, -, -, -, -, -, -, -, -, e90, e91⟩ := idx_facts ⟨(i 0).val / 8, by rw [hN]; omega⟩
  intro a
  match a with
  | ⟨0, _⟩ =>
    show win0_9.index _ (0 : Fin 2) * 8 ≤ (i 0).val ∧ (i 0).val < win0_9.index _ (0 : Fin 2) * 8 + 8
    rw [e90]; show (i 0).val / 8 * 8 ≤ (i 0).val ∧ (i 0).val < (i 0).val / 8 * 8 + 8; omega
  | ⟨1, _⟩ =>
    show win0_9.index _ (1 : Fin 2) * 1 ≤ (i 1).val ∧ (i 1).val < win0_9.index _ (1 : Fin 2) * 1 + 1
    rw [e91]; omega

/-- THE ARRAY after the run is `G` of the argument arrays. -/
theorem final (c : Dev nD) : (dats m 0 c).arrAt 9 cfg0.N = G m c :=
  (dats m 0 c).arrAt_eq_of_cover 9 (G m c) (fun t _ => flushed_eq m c t) cover

/-- The kernel's run: the result array ends at `G`, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.RelValue

end
-- ==== Proof.ReferenceValue.lean ====
/-
  The reference program's result is the mean over pairs followed by the head: `pairOut` of the argument arrays.

  Read one operation at a time at the ideal values. The two object arrays are laid over all `64 · 64` pairs and
  joined along the feature axis: at `(b, p, e)` the joined array holds object `p / 64` of the first set at column `e`
  for `e < 512` and object `p % 64` of the second set at column `e - 512` otherwise (`joined_apply`). Its product with
  `Wg` plus `bg`, summed over the pairs from zero and divided by `4096`, is `pairMeanRow` (`relation_mean_apply`). The
  two dense layers with bias read as `affine`, and the written-out `1 / (1 + exp (-x))` is the logistic function on the
  extended reals.
-/
import proofs.«136529_j42434276884668_1_alg».proof.Proof.Gen.ReferenceIdeal.Read
import proofs.«136529_j42434276884668_1_alg».proof.Proof.RelationSpec
import proofs.«136529_j42434276884668_1_alg».proof.Proof.LibPlainDot

noncomputable section

namespace Cert.ReferenceIdeal.PairValue

open Cert.ReferenceIdeal Cert.ReferenceIdeal.Gen Cert.ReferenceIdeal.Read Idealize.ShloMosaic Idealize.ShloMosaic.ValueIdx
open Cert.DenseLayer Cert.BiasLayer Cert.PairMean

variable (x0 x1 : (⟨S32x64x512, .f32⟩ : BufTy).Contents (Elt Ideal)) (x2 : (⟨S1024x256, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal)) (x6 : (⟨S256x1, .f32⟩ : BufTy).Contents (Elt Ideal))
  (x7 : (⟨S1, .f32⟩ : BufTy).Contents (Elt Ideal))

/-- The first set laid over all pairs: at `(b, p, d)` object `p / 64` of batch row `b`, column `d`. -/
theorem first_over_pairs_apply (b : Fin 32) (p : Fin 4096) (d : Fin 512) :
    val_main_v2 (F := Ideal) x0 (ix3 b p d) = x0 (ix3 b ⟨p.val / 64, by omega⟩ d) := by
  rw [val_main_v2_apply, val_main_v1_apply, val_main_v0_apply]
  have hb := b.isLt; have hp := p.isLt; have hd := d.isLt
  exact congrArg x0 (funext fun a => Fin.ext (by
    match a with
    | ⟨0, _⟩ => show ((b.val * 4096 + p.val) * 512 + d.val) / 2097152 = b.val; omega
    | ⟨1, _⟩ => show ((b.val * 4096 + p.val) * 512 + d.val) / 32768 % 64 = p.val / 64; omega
    | ⟨2, _⟩ => show ((b.val * 4096 + p.val) * 512 + d.val) % 512 = d.val; omega))

/-- The second set laid over all pairs: at `(b, p, d)` object `p % 64` of batch row `b`, column `d`. -/
theorem second_over_pairs_apply (b : Fin 32) (p : Fin 4096) (d : Fin 512) :
    val_main_v5 (F := Ideal) x1 (ix3 b p d) = x1 (ix3 b ⟨p.val % 64, by omega⟩ d) := by
  rw [val_main_v5_apply, val_main_v4_apply, val_main_v3_apply]
  have hb := b.isLt; have hp := p.isLt; have hd := d.isLt
  exact congrArg x1 (funext fun a => Fin.ext (by
    match a with
    | ⟨0, _⟩ => show ((b.val * 4096 + p.val) * 512 + d.val) / 2097152 = b.val; omega
    | ⟨1, _⟩ => show ((b.val * 4096 + p.val) * 512 + d.val) / 512 % 64 = p.val % 64; omega
    | ⟨2, _⟩ => show ((b.val * 4096 + p.val) * 512 + d.val) % 512 = d.val; omega))

/-- The joined array at `(b, p, e)` is the joined feature row of pair `p` of batch row `b`. -/
theorem joined_apply (b : Fin 32) (p : Fin 4096) (e : Fin 1024) :
    val_main_v6 (F := Ideal) x0 x1 (ix3 b p e) = pairRow (objs x0 b) (objs x1 b) p e := by
  unfold pairRow val_main_v6
  by_cases h : e.val < 512
  · rw [dif_pos h]
    rw [concatenate_pair_apply_left (t := S32x4096x1024) (s₁ := S32x4096x512) (s₂ := S32x4096x512) (2 : Fin 3) _ _ concatenates_S32x4096x512_S32x4096x512_S32x4096x1024_d2 (ix3 b p e) rfl
      (ix3 b p (⟨e.val, h⟩ : Fin 512)) (fun a => by
        match a with
        | ⟨0, _⟩ => rfl
        | ⟨1, _⟩ => rfl
        | ⟨2, _⟩ => rfl)]
    exact first_over_pairs_apply x0 b p ⟨e.val, h⟩
  · rw [dif_neg h]
    rw [concatenate_pair_apply_right (t := S32x4096x1024) (s₁ := S32x4096x512) (s₂ := S32x4096x512) (2 : Fin 3) _ _ concatenates_S32x4096x512_S32x4096x512_S32x4096x1024_d2 (ix3 b p e) rfl rfl
      (ix3 b p (⟨e.val - 512, by omega⟩ : Fin 512)) (fun a ha => by
        match a, ha with
        | ⟨0, _⟩, _ => rfl
        | ⟨1, _⟩, _ => rfl
        | ⟨2, _⟩, ha => exact absurd rfl ha) (by show e.val - 512 + 512 = e.val; omega)]
    exact second_over_pairs_apply x1 b p ⟨e.val - 512, by omega⟩

/-- The reference's relation mean at `(b, k)` is `pairMeanRow` of batch row `b`'s objects. -/
theorem relation_mean_apply (b : Fin 32) (k : Fin 256) :
    val_main_v13 (F := Ideal) x0 x1 x2 x3 (ix2 b k) = pairMeanRow (objs x0 b) (objs x1 b) x2 x3 k := by
  rw [val_main_v13_apply, val_main_v11_apply, val_main_v12_apply, val_main_cst_0_apply, val_main_cst_apply]
  unfold pairMeanRow
  show Ideal.div (Ideal.ofBits .f32 0x00000000#32 + _) (Ideal.ofBits .f32 0x45800000#32) = _
  refine congrArg (fun s => Ideal.div (Ideal.ofBits .f32 0x00000000#32 + s) (Ideal.ofBits .f32 0x45800000#32))
    (Finset.sum_congr rfl fun p _ => ?_)
  rw [val_main_v10_apply, val_main_v7_apply, val_main_v9_apply, val_main_v8_apply]
  show (∑ e : Fin 1024, _) + _ = _
  have hbias : x3 (idx_main_v8 (idx_main_v9 (idx_main_v11 (ix2 b k) p))) = x3 (ix1 k) :=
    congrArg x3 (funext fun a => Fin.ext (by match a with | ⟨0, _⟩ => rfl))
  rw [hbias]
  refine congrArg (· + x3 (ix1 k)) (Finset.sum_congr rfl fun e _ => ?_)
  have hl : lidx_main_v7 (idx_main_v11 (ix2 b k) p) e = ix3 b p e :=
    funext fun a => Fin.ext (by match a with | ⟨0, _⟩ => rfl | ⟨1, _⟩ => rfl | ⟨2, _⟩ => rfl)
  have hr : ridx_main_v7 (idx_main_v11 (ix2 b k) p) e = ix2 e k :=
    funext fun a => Fin.ext (by match a with | ⟨0, _⟩ => rfl | ⟨1, _⟩ => rfl)
  rw [hl, hr, joined_apply]

/-- The two dense layers' dimension numbers are those of plain products. -/
theorem plain_256 : PlainDot (a := 32) (K := 256) (N := 256) dot_S32x256_S256x256_S32x256_1_0_0_1_n_n :=
  plainDot_of_axes _ rfl rfl rfl rfl rfl rfl
theorem plain_1 : PlainDot (a := 32) (K := 256) (N := 1) dot_S32x256_S256x1_S32x1_1_0_0_1_n_n :=
  plainDot_of_axes _ rfl rfl rfl rfl rfl rfl

/-- The reference's result is `pairOut` of its arguments. -/
theorem result_eq :
    val_main_v27 (F := Ideal) x0 x1 x2 x3 x4 x5 x6 x7 = pairOut x0 x1 x2 x3 x4 x5 x6 x7 := by
  funext i
  obtain ⟨b, u, rfl⟩ : ∃ (b : Fin 32) (u : Fin 1), i = ix2 b u := ⟨i 0, i 1, eq_ix2 i⟩
  obtain rfl : u = 0 := Subsingleton.elim _ _
  have h17 : ∀ (r : Fin 32) (q : Fin 256), val_main_v17 (F := Ideal) x0 x1 x2 x3 x4 x5 (ix2 r q)
      = (∑ k : Fin 256, pairMeanRow (objs x0 r) (objs x1 r) x2 x3 k * x4 (ix2 k q)) + x5 (ix1 q) := fun r q => by
    unfold val_main_v17 val_main_v14 val_main_v16 val_main_v15
    rw [host_affine_apply _ x4 x5 plain_256 none bcast_S256_S1x256_1 bcast_S1x256_S32x256_0_1 r q, affine_apply]
    unfold prodRow
    exact congrArg (· + x5 (ix1 q)) (Finset.sum_congr rfl fun k _ => by rw [relation_mean_apply])
  have h21 : val_main_v21 (F := Ideal) x0 x1 x2 x3 x4 x5 x6 x7 (ix2 b 0)
      = (∑ q : Fin 256, ((∑ k : Fin 256, pairMeanRow (objs x0 b) (objs x1 b) x2 x3 k * x4 (ix2 k q)) + x5 (ix1 q))
          * x6 (ix2 q (0 : Fin 1))) + x7 (ix1 (0 : Fin 1)) := by
    unfold val_main_v21 val_main_v18 val_main_v20 val_main_v19
    rw [host_affine_apply _ x6 x7 plain_1 none bcast_S1_S1x1_1 bcast_S1x1_S32x1_0_1 b 0, affine_apply]
    unfold prodRow
    exact congrArg (· + x7 (ix1 (0 : Fin 1))) (Finset.sum_congr rfl fun q _ => by rw [h17])
  rw [val_main_v27_apply, val_main_v26_apply, val_main_cst_2_apply, val_main_v25_apply, val_main_v24_apply,
    val_main_cst_1_apply, val_main_v23_apply, val_main_v22_apply, h21]
  show Ideal.div (Ideal.ofBits .f32 0x3F800000#32) (Ideal.ofBits .f32 0x3F800000#32 + Ideal.exp (-_)) = _
  rw [word_one]
  rfl

end Cert.ReferenceIdeal.PairValue

end
-- ==== Proof.lean ====
/-
  A relation network against its reference, over the extended reals.

  For each batch row the reference joins every object of a first set with every object of a second set, applies one
  linear map `Wg` with bias `bg` to each of the `64 · 64` joined rows and averages; the kernel applies the upper half
  of `Wg` to the first set and the lower half to the second, averages each over its `64` objects and adds the two means
  and `bg`. Because the joined row's product splits at the seam and the mean over pairs of `A i + B j + c` is
  `mean A + mean B + c`, the two agree on real inputs (Proof/LibPairMean.lean, Proof/RelationSpec.lean); the law moves a
  factor across a sum, so it needs the inputs finite, which the precondition gives (Proof/FiniteInputs.lean). Both
  programs then apply two dense layers with bias and the logistic function, which the reference writes out as
  `1 / (1 + exp (-x))`: one function on the extended reals.

  The kernel's result array is read off its run block by block (Proof/KernelBody.lean, Proof/KernelValue.lean) and the
  reference's off its run operation by operation (Proof/ReferenceValue.lean); both are the same function of the
  arguments. The ideal pass rewrote nothing, so `preserves` has no conjunct.
-/
import proofs.«136529_j42434276884668_1_alg».proof.Defs
import proofs.«136529_j42434276884668_1_alg».proof.Proof.Gen.Kernel
import proofs.«136529_j42434276884668_1_alg».proof.Proof.Gen.Kernel.Skeleton
import proofs.«136529_j42434276884668_1_alg».proof.Proof.Gen.Kernel.Launch
import proofs.«136529_j42434276884668_1_alg».proof.Proof.Gen.Kernel.Points
import proofs.«136529_j42434276884668_1_alg».proof.Proof.Gen.Kernel.Frame
import proofs.«136529_j42434276884668_1_alg».proof.Proof.Gen.KernelIdeal
import proofs.«136529_j42434276884668_1_alg».proof.Proof.Gen.KernelIdeal.Skeleton
import proofs.«136529_j42434276884668_1_alg».proof.Proof.Gen.KernelIdeal.Launch
import proofs.«136529_j42434276884668_1_alg».proof.Proof.Gen.KernelIdeal.Points
import proofs.«136529_j42434276884668_1_alg».proof.Proof.Gen.KernelIdeal.Frame
import proofs.«136529_j42434276884668_1_alg».proof.Proof.Gen.ReferenceIdeal
import proofs.«136529_j42434276884668_1_alg».proof.Proof.Gen.Pre_finite_inputs
import proofs.«136529_j42434276884668_1_alg».proof.Proof.Gen.KernelIdeal.Value
import proofs.«136529_j42434276884668_1_alg».proof.Proof.Gen.ReferenceIdeal.Run
import proofs.«136529_j42434276884668_1_alg».proof.Proof.Gen.ReferenceIdeal.Read
import proofs.«136529_j42434276884668_1_alg».proof.Proof.RelationSpec
import proofs.«136529_j42434276884668_1_alg».proof.Proof.FiniteInputs
import proofs.«136529_j42434276884668_1_alg».proof.Proof.KernelValue
import proofs.«136529_j42434276884668_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at one function of the arguments: the kernel's at `sepOut`, the
    reference's at `pairOut`, equal because the precondition makes the object arrays, `Wg` and `bg` real. -/
theorem algebraic : Cert.algebraic_KernelIdeal_ReferenceIdeal := by
  intro m ρ m' ρ' hpre hagree
  refine ⟨fun c => Cert.KernelIdeal.RelValue.G m c, Cert.KernelIdeal.RelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  refine (Cert.ReferenceIdeal.Read.val_main_v27_eq (F := Ideal) _ _ _ _ _ _ _ _).trans ?_
  rw [Cert.ReferenceIdeal.PairValue.result_eq]
  obtain ⟨r0, r1, r2, r3⟩ := Cert.Pre_finite_inputs.Finite.reals_of_pre _ _ _ _ _ _ _ _ (hpre c)
  exact (Cert.PairMean.sepOut_eq_pairOut _ _ _ _ _ _ _ _ r0 r1 r2 r3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
